-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256 : Shape := ⟨3, ![8, 64, 256]⟩
abbrev S256x64 : Shape := ⟨2, ![256, 64]⟩
abbrev S320x512 : Shape := ⟨2, ![320, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S8x64x256 : S_.BroadcastsInDim S8x64x256 (![] : Fin 0 → Fin S8x64x256.rank)
  reducesTo_S8x64x256_S_d0_1_2 : S8x64x256.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S320x512 : S_.BroadcastsInDim S320x512 (![] : Fin 0 → Fin S320x512.rank)
  reducesTo_S320x512_S_d0_1 : S320x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S8x64x256 .f32) (main_arg1 : FVec F S256x64 .f32) (main_arg2 : FVec F S320x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S8x64x256 .f32 := Host.absf main_arg0
  let main_cst : FVec F S_ .f32 := constant S_ .f32 0x7F800000#32
  let main_v1 : FVec F S8x64x256 .f32 := broadcastInDim S8x64x256 ![] bcast_S_S8x64x256 main_cst
  let main_v2 : IVec S8x64x256 1 := cmpf .olt main_v0 main_v1
  let main_c : IVec S_ 1 := constantI S_ 1 1#1
  let main_v3 : IVec S_ 1 := (fun x v => Host.reduce IntOp.andi x v reducesTo_S8x64x256_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S320x512 .f32 := Host.absf main_arg2
  let main_cst_2 : FVec F S_ .f32 := constant S_ .f32 0x7F800000#32
  let main_v10 : FVec F S320x512 .f32 := broadcastInDim S320x512 ![] bcast_S_S320x512 main_cst_2
  let main_v11 : IVec S320x512 1 := cmpf .olt main_v9 main_v10
  let main_c_3 : IVec S_ 1 := constantI S_ 1 1#1
  let main_v12 : IVec S_ 1 := (fun x v => Host.reduce IntOp.andi x v reducesTo_S320x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x64x256 : Shape := ⟨3, ![8, 64, 256]⟩
abbrev S256x64 : Shape := ⟨2, ![256, 64]⟩
abbrev S320x512 : Shape := ⟨2, ![320, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x256 : Shape := ⟨2, ![512, 256]⟩
abbrev S256x512 : Shape := ⟨2, ![256, 512]⟩
abbrev S64x512 : Shape := ⟨2, ![64, 512]⟩
abbrev S1x512 : Shape := ⟨2, ![1, 512]⟩
abbrev S1x1 : Shape := ⟨2, ![1, 1]⟩
abbrev S512x256x1 : Shape := ⟨3, ![512, 256, 1]⟩
abbrev S8x256 : Shape := ⟨2, ![8, 256]⟩
abbrev S8x256x1 : Shape := ⟨3, ![8, 256, 1]⟩
abbrev S8x512 : Shape := ⟨2, ![8, 512]⟩
abbrev S8x1x512 : Shape := ⟨3, ![8, 1, 512]⟩
abbrev S1x256x512 : Shape := ⟨3, ![1, 256, 512]⟩
abbrev S8x256x512 : Shape := ⟨3, ![8, 256, 512]⟩
abbrev S1x1x512 : Shape := ⟨3, ![1, 1, 512]⟩
abbrev S2048x512 : Shape := ⟨2, ![2048, 512]⟩
abbrev S2048x1 : Shape := ⟨2, ![2048, 1]⟩
abbrev S8x64x256x1 : Shape := ⟨4, ![8, 64, 256, 1]⟩

abbrev nBuf : Space → Nat
  | .hbm => 16
  | .vmem => 12
  | .smem => 0
  | _ => 0

abbrev bufTy : (tb : Table) → Fin (tcTables nBuf tb) → BufTy
  | .hbm, ⟨0, _⟩ => ⟨S8x64x256, .f32⟩
  | .hbm, ⟨1, _⟩ => ⟨S256x64, .f32⟩
  | .hbm, ⟨2, _⟩ => ⟨S320x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x256, .f32⟩
  | .hbm, ⟨9, _⟩ => ⟨S256x512, .f32⟩
  | .hbm, ⟨10, _⟩ => ⟨S64x512, .f32⟩
  | .hbm, ⟨11, _⟩ => ⟨S1x512, .f32⟩
  | .hbm, ⟨12, _⟩ => ⟨S1x512, .f32⟩
  | .hbm, ⟨13, _⟩ => ⟨S1x1, .f32⟩
  | .hbm, ⟨14, _⟩ => ⟨S512x256x1, .f32⟩
  | .hbm, ⟨15, _⟩ => ⟨S8x64x256x1, .f32⟩
  | .local _ .vmem, ⟨0, _⟩ => ⟨S8x256, .f32⟩
  | .local _ .vmem, ⟨1, _⟩ => ⟨S8x256, .f32⟩
  | .local _ .vmem, ⟨2, _⟩ => ⟨S256x64, .f32⟩
  | .local _ .vmem, ⟨3, _⟩ => ⟨S256x512, .f32⟩
  | .local _ .vmem, ⟨4, _⟩ => ⟨S64x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x1, .f32⟩
  | .local _ .vmem, ⟨9, _⟩ => ⟨S1x1, .f32⟩
  | .local _ .vmem, ⟨10, _⟩ => ⟨S8x256x1, .f32⟩
  | .local _ .vmem, ⟨11, _⟩ => ⟨S8x256x1, .f32⟩
  | _, _ => ⟨S8x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x64x256_S512x256 : S8x64x256.ShapeCasts S512x256
  slices_S320x512_S256x512_0_0 : S320x512.Slices ![0, 0] S256x512
  slices_S320x512_S64x512_256_0 : S320x512.Slices ![256, 0] S64x512
  shapeCasts_S512_S1x512 : S512.ShapeCasts S1x512
  shapeCasts_S1_S1x1 : S1.ShapeCasts S1x1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x64_S256x64_0_0 : ∀ a, (![0, 0] : Fin 2 → Nat) a + S256x64.size a ≤ S256x64.size a
  h_S256x64 : 0 < S256x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S8x512_S8x1x512 : S8x512.ShapeCasts S8x1x512
  shapeCasts_S256x512_S1x256x512 : S256x512.ShapeCasts S1x256x512
  broadcasts_S8x1x512_S8x256x512 : S8x1x512.Broadcasts S8x256x512
  broadcasts_S1x256x512_S8x256x512 : S1x256x512.Broadcasts S8x256x512
  shapeCasts_S1x512_S1x1x512 : S1x512.ShapeCasts S1x1x512
  broadcasts_S1x1x512_S8x256x512 : S1x1x512.Broadcasts S8x256x512
  shapeCasts_S8x256x512_S2048x512 : S8x256x512.ShapeCasts S2048x512
  inb_S512x512_S512x512_0_0 : ∀ a, (![0, 0] : Fin 2 → Nat) a + S512x512.size a ≤ S512x512.size a
  h_S512x512 : 0 < S512x512.numel
  broadcasts_S1x512_S2048x512 : S1x512.Broadcasts S2048x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S2048x1_S8x256x1 : S2048x1.ShapeCasts S8x256x1
  inb_S8x256x1_S8x256x1_0_0_0 : ∀ a, (![0, 0, 0] : Fin 3 → Nat) a + S8x256x1.size a ≤ S8x256x1.size a
  h_S8x256x1 : 0 < S8x256x1.numel
  shapeCasts_S512x256x1_S8x64x256x1 : S512x256x1.ShapeCasts S8x64x256x1
  dot_S8x256_S256x512_S8x512_1_0_0_1_n_n_wf : DotDims.WF S8x256 S256x512 S8x512 [1] [0] [0] [1] [] []
  dot_S256x64_S64x512_S256x512_1_0_0_1_n_n_wf : DotDims.WF S256x64 S64x512 S256x512 [1] [0] [0] [1] [] []
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S512x256.size a
  hwx0_0 : ∀ i : grid0.Coords, EltTy.bits .f32 = 32 ∨ (Rect.block (s := S512x256) S8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x256x1.size a ≤ S512x256x1.size a
  hwx0_9 : ∀ i : grid0.Coords, EltTy.bits .f32 = 32 ∨ (Rect.block (s := S512x256x1) S8x256x1.size (cc0_transform_9 i) (hinb0_9 i)).WholeWords (EltTy.packing .f32)

variable [Facts₀]

def dot_S8x256_S256x512_S8x512_1_0_0_1_n_n : DotDims S8x256 S256x512 S8x512 where
  lhsContracting := [1]
  rhsContracting := [0]
  lhsNonContracting := [0]
  rhsNonContracting := [1]
  lhsBatch := []
  rhsBatch := []
  wf := dot_S8x256_S256x512_S8x512_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_v0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S8x256x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x64x256 : Shape := ⟨3, ![8, 64, 256]⟩
abbrev S256x64 : Shape := ⟨2, ![256, 64]⟩
abbrev S320x512 : Shape := ⟨2, ![320, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S256x512 : Shape := ⟨2, ![256, 512]⟩
abbrev S64x512 : Shape := ⟨2, ![64, 512]⟩
abbrev S8x64x512 : Shape := ⟨3, ![8, 64, 512]⟩
abbrev S8x64x1x512 : Shape := ⟨4, ![8, 64, 1, 512]⟩
abbrev S1x1x256x512 : Shape := ⟨4, ![1, 1, 256, 512]⟩
abbrev S8x64x256x512 : Shape := ⟨4, ![8, 64, 256, 512]⟩
abbrev S1x1x1x512 : Shape := ⟨4, ![1, 1, 1, 512]⟩
abbrev S_ : Shape := ⟨0, ![]⟩
abbrev S8x64x256x1 : Shape := ⟨4, ![8, 64, 256, 1]⟩
abbrev S1x1x1x1 : Shape := ⟨4, ![1, 1, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x64x256, .f32⟩
  | .hbm, ⟨1, _⟩ => ⟨S256x64, .f32⟩
  | .hbm, ⟨2, _⟩ => ⟨S320x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S256x512, .f32⟩
  | .hbm, ⟨9, _⟩ => ⟨S64x512, .f32⟩
  | .hbm, ⟨10, _⟩ => ⟨S8x64x512, .f32⟩
  | .hbm, ⟨11, _⟩ => ⟨S256x512, .f32⟩
  | .hbm, ⟨12, _⟩ => ⟨S8x64x1x512, .f32⟩
  | .hbm, ⟨13, _⟩ => ⟨S1x1x256x512, .f32⟩
  | .hbm, ⟨14, _⟩ => ⟨S8x64x256x512, .f32⟩
  | .hbm, ⟨15, _⟩ => ⟨S8x64x256x512, .f32⟩
  | .hbm, ⟨16, _⟩ => ⟨S8x64x256x512, .f32⟩
  | .hbm, ⟨17, _⟩ => ⟨S1x1x1x512, .f32⟩
  | .hbm, ⟨18, _⟩ => ⟨S8x64x256x512, .f32⟩
  | .hbm, ⟨19, _⟩ => ⟨S8x64x256x512, .f32⟩
  | .hbm, ⟨20, _⟩ => ⟨S_, .f32⟩
  | .hbm, ⟨21, _⟩ => ⟨S8x64x256x512, .f32⟩
  | .hbm, ⟨22, _⟩ => ⟨S8x64x256x512, .f32⟩
  | .hbm, ⟨23, _⟩ => ⟨S8x64x256x512, .f32⟩
  | .hbm, ⟨24, _⟩ => ⟨S1x1x1x512, .f32⟩
  | .hbm, ⟨25, _⟩ => ⟨S8x64x256x512, .f32⟩
  | .hbm, ⟨26, _⟩ => ⟨S8x64x256x512, .f32⟩
  | .hbm, ⟨27, _⟩ => ⟨S_, .f32⟩
  | .hbm, ⟨28, _⟩ => ⟨S8x64x256x512, .f32⟩
  | .hbm, ⟨29, _⟩ => ⟨S8x64x256x512, .f32⟩
  | .hbm, ⟨30, _⟩ => ⟨S8x64x256x1, .f32⟩
  | .hbm, ⟨31, _⟩ => ⟨S1x1x1x1, .f32⟩
  | .hbm, ⟨32, _⟩ => ⟨S8x64x256x1, .f32⟩
  | .hbm, ⟨33, _⟩ => ⟨S8x64x256x1, .f32⟩
  | _, _ => ⟨S8x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  slices_S320x512_S256x512_0_0 : S320x512.Slices ![0, 0] S256x512
  slices_S320x512_S64x512_256_0 : S320x512.Slices ![256, 0] S64x512
  bcast_S8x64x512_S8x64x1x512_0_1_3 : S8x64x512.BroadcastsInDim S8x64x1x512 (![0, 1, 3] : Fin 3 → Fin S8x64x1x512.rank)
  bcast_S256x512_S1x1x256x512_2_3 : S256x512.BroadcastsInDim S1x1x256x512 (![2, 3] : Fin 2 → Fin S1x1x256x512.rank)
  bcast_S8x64x1x512_S8x64x256x512_0_1_2_3 : S8x64x1x512.BroadcastsInDim S8x64x256x512 (![0, 1, 2, 3] : Fin 4 → Fin S8x64x256x512.rank)
  bcast_S1x1x256x512_S8x64x256x512_0_1_2_3 : S1x1x256x512.BroadcastsInDim S8x64x256x512 (![0, 1, 2, 3] : Fin 4 → Fin S8x64x256x512.rank)
  bcast_S512_S1x1x1x512_3 : S512.BroadcastsInDim S1x1x1x512 (![3] : Fin 1 → Fin S1x1x1x512.rank)
  bcast_S1x1x1x512_S8x64x256x512_0_1_2_3 : S1x1x1x512.BroadcastsInDim S8x64x256x512 (![0, 1, 2, 3] : Fin 4 → Fin S8x64x256x512.rank)
  bcast_S_S8x64x256x512 : S_.BroadcastsInDim S8x64x256x512 (![] : Fin 0 → Fin S8x64x256x512.rank)
  bcast_S1_S1x1x1x1_3 : S1.BroadcastsInDim S1x1x1x1 (![3] : Fin 1 → Fin S1x1x1x1.rank)
  bcast_S1x1x1x1_S8x64x256x1_0_1_2_3 : S1x1x1x1.BroadcastsInDim S8x64x256x1 (![0, 1, 2, 3] : Fin 4 → Fin S8x64x256x1.rank)
  dot_S8x64x256_S256x512_S8x64x512_2_0_01_1_n_n_wf : DotDims.WF S8x64x256 S256x512 S8x64x512 [2] [0] [0, 1] [1] [] []
  dot_S256x64_S64x512_S256x512_1_0_0_1_n_n_wf : DotDims.WF S256x64 S64x512 S256x512 [1] [0] [0] [1] [] []
  dot_S8x64x256x512_S512x512_S8x64x256x512_3_0_012_1_n_n_wf : DotDims.WF S8x64x256x512 S512x512 S8x64x256x512 [3] [0] [0, 1, 2] [1] [] []
  dot_S8x64x256x512_S512x1_S8x64x256x1_3_0_012_1_n_n_wf : DotDims.WF S8x64x256x512 S512x1 S8x64x256x1 [3] [0] [0, 1, 2] [1] [] []

variable [Facts₀]

def dot_S8x64x256_S256x512_S8x64x512_2_0_01_1_n_n : DotDims S8x64x256 S256x512 S8x64x512 where
  lhsContracting := [2]
  rhsContracting := [0]
  lhsNonContracting := [0, 1]
  rhsNonContracting := [1]
  lhsBatch := []
  rhsBatch := []
  wf := dot_S8x64x256_S256x512_S8x64x512_2_0_01_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S8x64x256x512_S512x512_S8x64x256x512_3_0_012_1_n_n : DotDims S8x64x256x512 S512x512 S8x64x256x512 where
  lhsContracting := [3]
  rhsContracting := [0]
  lhsNonContracting := [0, 1, 2]
  rhsNonContracting := [1]
  lhsBatch := []
  rhsBatch := []
  wf := dot_S8x64x256x512_S512x512_S8x64x256x512_3_0_012_1_n_n_wf
def dot_S8x64x256x512_S512x1_S8x64x256x1_3_0_012_1_n_n : DotDims S8x64x256x512 S512x1 S8x64x256x1 where
  lhsContracting := [3]
  rhsContracting := [0]
  lhsNonContracting := [0, 1, 2]
  rhsNonContracting := [1]
  lhsBatch := []
  rhsBatch := []
  wf := dot_S8x64x256x512_S512x1_S8x64x256x1_3_0_012_1_n_n_wf

class Facts : Prop extends Facts₀ where

variable [Facts]
-- ==== Proof.Spec.lean ====
/-
  The function both programs compute, stated once over abstract index types.

  A row `r` carries a feature vector `A r` (over `H`), an entity `q` a feature vector `E q` (over `D`). The first
  layer's pre-activation at hidden unit `k` is the sum of the two projections and the bias,
  `(∑ h, A r h · Wh h k) + (∑ d, E q d · We d k) + b1 k`: the weight matrix of the concatenated input, split into its
  two row blocks, so that the concatenation is never formed. It is rectified against `floor0`, sent through a second
  dense layer `W2`, `b2` and rectified again, and a last dense layer `W3`, `b3` with ONE output unit gives the score
  of the pair `(r, q)`.

  Everything is on the extended reals and uses only `+`, `·`, `max` and finite sums, each written in the order both
  programs apply it; no law of arithmetic is needed to compare them, only how the rows and the weights are indexed.
-/
import Idealize.ShloMosaic.PureOps.Ideal
import Idealize.ShloMosaic.Lib.ValueIdx

noncomputable section

namespace Cert.Mlp

open Idealize.ShloMosaic Idealize.ShloMosaic.ValueIdx

/-- What the f32 zero word denotes: the floor of both rectifiers. The same word stands on both sides, so it is never
    evaluated. -/
abbrev floor0 : EReal := Ideal.ofBits .f32 0x00000000#32

/-- The score of row `r` against entity `q`: three dense layers, the first on the sum of the row's and the entity's
    projections, rectified after the first and the second. -/
def mlp {R Q H D K J : Type} [Fintype H] [Fintype D] [Fintype K] [Fintype J]
    (A : R → H → EReal) (Wh : H → K → EReal) (E : Q → D → EReal) (We : D → K → EReal) (b1 : K → EReal)
    (W2 : K → J → EReal) (b2 : J → EReal) (W3 : J → EReal) (b3 : EReal) (r : R) (q : Q) : EReal :=
  (∑ j, max ((∑ k, max (((∑ h, A r h * Wh h k) + ∑ d, E q d * We d k) + b1 k) floor0 * W2 k j) + b2 j) floor0 * W3 j) + b3

/-- The score depends on the row only through its feature vector: two row tables, over any two row types, that hold
    the same vector at `r` and `r'` give the same score there. -/
theorem mlp_row_congr {R R' Q H D K J : Type} [Fintype H] [Fintype D] [Fintype K] [Fintype J]
    (A : R → H → EReal) (A' : R' → H → EReal) (Wh : H → K → EReal) (E : Q → D → EReal) (We : D → K → EReal)
    (b1 : K → EReal) (W2 : K → J → EReal) (b2 : J → EReal) (W3 : J → EReal) (b3 : EReal) (r : R) (r' : R') (q : Q)
    (h : A r = A' r') : mlp A Wh E We b1 W2 b2 W3 b3 r q = mlp A' Wh E We b1 W2 b2 W3 b3 r' q := by
  unfold mlp
  rw [h]

/-- The score is a function of what it reads and of nothing else: the row's and the entity's feature vectors, the
    weights and the biases. Two sets of tables, over any row and entity types, that agree on those give the same score. -/
theorem mlp_congr {R R' Q Q' H D K J : Type} [Fintype H] [Fintype D] [Fintype K] [Fintype J]
    {A : R → H → EReal} {A' : R' → H → EReal} {Wh Wh' : H → K → EReal} {E : Q → D → EReal} {E' : Q' → D → EReal}
    {We We' : D → K → EReal} {b1 b1' : K → EReal} {W2 W2' : K → J → EReal} {b2 b2' : J → EReal} {W3 W3' : J → EReal}
    {b3 b3' : EReal} {r : R} {r' : R'} {q : Q} {q' : Q'}
    (hA : A r = A' r') (hWh : Wh = Wh') (hE : E q = E' q') (hWe : We = We') (hb1 : b1 = b1') (hW2 : W2 = W2')
    (hb2 : b2 = b2') (hW3 : W3 = W3') (hb3 : b3 = b3') :
    mlp A Wh E We b1 W2 b2 W3 b3 r q = mlp A' Wh' E' We' b1' W2' b2' W3' b3' r' q' := by
  subst hWh hWe hb1 hW2 hb2 hW3 hb3
  unfold mlp
  rw [hA, hE]

/-! ## Over the argument arrays -/

/-- Row `h` of the stacked weight matrix's upper block (the rows that meet the row features). -/
abbrev upper (h : Fin 256) : Fin 320 := ⟨h.val, by have := h.isLt; omega⟩
/-- Row `d` of its lower block (the rows that meet the entity features). -/
abbrev lower (d : Fin 64) : Fin 320 := ⟨256 + d.val, by have := d.isLt; omega⟩

/-- The result over the arguments: at `(b, n, q, 0)` the score of row `(b, n)` of `x` against entity `q`. -/
def result (x : (⟨3, ![8, 64, 256]⟩ : Shape).Idx → EReal) (e : (⟨2, ![256, 64]⟩ : Shape).Idx → EReal)
    (W1 : (⟨2, ![320, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 1]⟩ : Shape).Idx → EReal) (b3 : (⟨1, ![1]⟩ : Shape).Idx → EReal) :
    (⟨4, ![8, 64, 256, 1]⟩ : Shape).Idx → EReal :=
  fun i => mlp (fun (r : Fin 8 × Fin 64) (h : Fin 256) => x (ix3 r.1 r.2 h)) (fun (h : Fin 256) (k : Fin 512) => W1 (ix2 (upper h) k))
    (fun (q : Fin 256) (d : Fin 64) => e (ix2 q d)) (fun (d : Fin 64) (k : Fin 512) => W1 (ix2 (lower d) k)) (fun k => b1 (ix1 k))
    (fun (k : Fin 512) (j : Fin 512) => W2 (ix2 k j)) (fun j => b2 (ix1 j)) (fun j => W3 (ix2 j (0 : Fin 1))) (b3 (ix1 (0 : Fin 1)))
    ((i 0 : Fin 8), (i 1 : Fin 64)) (i 2 : Fin 256)

/-- The same scores with the two row axes merged, row `64 b + n` for `(b, n)`: the array the region leaves, before
    the last reshape splits the axis again. -/
def flatResult (x : (⟨3, ![8, 64, 256]⟩ : Shape).Idx → EReal) (e : (⟨2, ![256, 64]⟩ : Shape).Idx → EReal)
    (W1 : (⟨2, ![320, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 1]⟩ : Shape).Idx → EReal) (b3 : (⟨1, ![1]⟩ : Shape).Idx → EReal) :
    (⟨3, ![512, 256, 1]⟩ : Shape).Idx → EReal :=
  fun i => mlp (fun (r : Fin 512) (h : Fin 256) =>
      x (ix3 (⟨r.val / 64, by have := r.isLt; omega⟩ : Fin 8) (⟨r.val % 64, Nat.mod_lt _ (by decide)⟩ : Fin 64) h))
    (fun (h : Fin 256) (k : Fin 512) => W1 (ix2 (upper h) k))
    (fun (q : Fin 256) (d : Fin 64) => e (ix2 q d)) (fun (d : Fin 64) (k : Fin 512) => W1 (ix2 (lower d) k)) (fun k => b1 (ix1 k))
    (fun (k : Fin 512) (j : Fin 512) => W2 (ix2 k j)) (fun j => b2 (ix1 j)) (fun j => W3 (ix2 j (0 : Fin 1))) (b3 (ix1 (0 : Fin 1)))
    (i 0 : Fin 512) (i 1 : Fin 256)

/-- Splitting the merged row axis: the result at `(b, n, q, z)` is the merged array at row `64 b + n`. -/
theorem result_eq_flat (x : (⟨3, ![8, 64, 256]⟩ : Shape).Idx → EReal) (e : (⟨2, ![256, 64]⟩ : Shape).Idx → EReal)
    (W1 : (⟨2, ![320, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 1]⟩ : Shape).Idx → EReal) (b3 : (⟨1, ![1]⟩ : Shape).Idx → EReal)
    (b : Fin 8) (n : Fin 64) (q : Fin 256) (z z' : Fin 1) (r : Fin 512) (hr : r.val = 64 * b.val + n.val) :
    result x e W1 b1 W2 b2 W3 b3 (ix4 b n q z) = flatResult x e W1 b1 W2 b2 W3 b3 (ix3 r q z') := by
  unfold result flatResult
  refine mlp_row_congr _ _ _ _ _ _ _ _ _ _ _ _ _ ?_
  funext h
  have hb : r.val / 64 = b.val := by have := n.isLt; omega
  have hn : r.val % 64 = n.val := by have := n.isLt; omega
  show x (ix3 b n h) = x (ix3 ⟨r.val / 64, _⟩ ⟨r.val % 64, _⟩ h)
  congr 1
  funext a
  match a with
  | ⟨0, _⟩ => exact Fin.ext hb.symm
  | ⟨1, _⟩ => exact Fin.ext hn.symm
  | ⟨2, _⟩ => rfl

end Cert.Mlp

end
-- ==== Proof.RefValue.lean ====
/-
  The reference computes `Mlp.result`.

  Its operations, read one at a time at an index: the two slices of the stacked weight matrix are its upper 256 and its
  lower 64 rows; the row projection contracts the features of row (b, n) against the upper block, the entity
  projection those of entity `q` against the lower block; the broadcasts carry both, and the first bias, to every
  (b, n, q, k), where they are added in that order and rectified; the second product contracts the hidden unit `k`
  against `W2`, the bias is added, the sum rectified; the last product contracts `j` against the one column of `W3`
  and the last bias is added. Index by index that is `Mlp.mlp` at row (b, n) and entity `q`, term for term.
-/
import proofs.«103381_j32169305047137_1_alg».proof.Proof.Gen.ReferenceIdeal.Read
import proofs.«103381_j32169305047137_1_alg».proof.Proof.Spec

noncomputable section

namespace Cert.ReferenceIdeal.RefValue

open Cert.ReferenceIdeal Cert.ReferenceIdeal.Read Idealize.ShloMosaic Idealize.ShloMosaic.ValueIdx Cert.Mlp

variable (x0 : (⟨S8x64x256, .f32⟩ : BufTy).Contents (Elt Ideal)) (x1 : (⟨S256x64, .f32⟩ : BufTy).Contents (Elt Ideal))
  (x2 : (⟨S320x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S512x1, .f32⟩ : BufTy).Contents (Elt Ideal)) (x7 : (⟨S1, .f32⟩ : BufTy).Contents (Elt Ideal))

/-- The first hidden layer at (b, n, q, k): the row's and the entity's projections onto unit `k`, the bias, rectified. -/
theorem hidden1_apply (b : Fin 8) (n : Fin 64) (q : Fin 256) (k : Fin 512) :
    val_main_v12 (F := Ideal) x0 x1 x2 x3 (ix4 b n q k)
      = max (((∑ h : Fin 256, x0 (ix3 b n h) * x2 (ix2 (upper h) k)) + ∑ d : Fin 64, x1 (ix2 q d) * x2 (ix2 (lower d) k))
          + x3 (ix1 k)) floor0 := by
  rw [val_main_v12_apply, val_main_v11_apply, val_main_v8_apply, val_main_v6_apply, val_main_v4_apply, val_main_v2_apply,
    val_main_v7_apply, val_main_v5_apply, val_main_v3_apply, val_main_v10_apply, val_main_v9_apply,
    val_main_call0_v0_apply, val_main_call0_cst_apply]
  simp only [val_main_v0_apply, val_main_v1_apply]
  have e1 : ∀ h : Fin 256, lidx_main_v2 (idx_main_v4 (idx_main_v6 (ix4 b n q k))) h = ix3 b n h := fun h =>
    funext fun a => match a with | ⟨0, _⟩ => rfl | ⟨1, _⟩ => rfl | ⟨2, _⟩ => rfl
  have e2 : ∀ h : Fin 256, idx_main_v0 (ridx_main_v2 (idx_main_v4 (idx_main_v6 (ix4 b n q k))) h) = ix2 (upper h) k := fun h =>
    funext fun a => match a with | ⟨0, _⟩ => rfl | ⟨1, _⟩ => rfl
  have e3 : ∀ d : Fin 64, lidx_main_v3 (idx_main_v5 (idx_main_v7 (ix4 b n q k))) d = ix2 q d := fun d =>
    funext fun a => match a with | ⟨0, _⟩ => rfl | ⟨1, _⟩ => rfl
  have e4 : ∀ d : Fin 64, idx_main_v1 (ridx_main_v3 (idx_main_v5 (idx_main_v7 (ix4 b n q k))) d) = ix2 (lower d) k := fun d =>
    funext fun a => match a with | ⟨0, _⟩ => rfl | ⟨1, _⟩ => rfl
  have e5 : idx_main_v9 (idx_main_v10 (ix4 b n q k)) = ix1 k :=
    funext fun a => match a with | ⟨0, _⟩ => rfl
  simp only [e1, e2, e3, e4, e5]
  rfl

/-- The second hidden layer at (b, n, q, j): the first layer's units against column `j` of `W2`, the bias, rectified. -/
theorem hidden2_apply (b : Fin 8) (n : Fin 64) (q : Fin 256) (j : Fin 512) :
    val_main_v17 (F := Ideal) x0 x1 x2 x3 x4 x5 (ix4 b n q j)
      = max ((∑ k : Fin 512, val_main_v12 (F := Ideal) x0 x1 x2 x3 (ix4 b n q k) * x4 (ix2 k j)) + x5 (ix1 j)) floor0 := by
  rw [val_main_v17_apply, val_main_v16_apply, val_main_v13_apply, val_main_v15_apply, val_main_v14_apply,
    val_main_call1_v0_apply, val_main_call1_cst_apply]
  have e1 : ∀ k : Fin 512, lidx_main_v13 (ix4 b n q j) k = ix4 b n q k := fun k =>
    funext fun a => match a with | ⟨0, _⟩ => rfl | ⟨1, _⟩ => rfl | ⟨2, _⟩ => rfl | ⟨3, _⟩ => rfl
  have e2 : ∀ k : Fin 512, ridx_main_v13 (ix4 b n q j) k = ix2 k j := fun k =>
    funext fun a => match a with | ⟨0, _⟩ => rfl | ⟨1, _⟩ => rfl
  have e3 : idx_main_v14 (idx_main_v15 (ix4 b n q j)) = ix1 j :=
    funext fun a => match a with | ⟨0, _⟩ => rfl
  simp only [e1, e2, e3]
  rfl

/-- The reference's last stage is the specification of its arguments. -/
theorem result_eq : val_main_v21 (F := Ideal) x0 x1 x2 x3 x4 x5 x6 x7 = result x0 x1 x2 x3 x4 x5 x6 x7 := by
  funext i
  obtain ⟨b, n, q, z, rfl⟩ : ∃ (b : Fin 8) (n : Fin 64) (q : Fin 256) (z : Fin 1), i = ix4 b n q z :=
    ⟨i 0, i 1, i 2, i 3, eq_ix4 i⟩
  have hz : z = 0 := Subsingleton.elim _ _
  subst hz
  rw [val_main_v21_apply, val_main_v18_apply, val_main_v20_apply, val_main_v19_apply]
  have e1 : ∀ j : Fin 512, lidx_main_v18 (ix4 b n q (0 : Fin 1)) j = ix4 b n q j := fun j =>
    funext fun a => match a with | ⟨0, _⟩ => rfl | ⟨1, _⟩ => rfl | ⟨2, _⟩ => rfl | ⟨3, _⟩ => rfl
  have e2 : ∀ j : Fin 512, ridx_main_v18 (ix4 b n q (0 : Fin 1)) j = ix2 j (0 : Fin 1) := fun j =>
    funext fun a => match a with | ⟨0, _⟩ => rfl | ⟨1, _⟩ => rfl
  have e3 : idx_main_v19 (idx_main_v20 (ix4 b n q (0 : Fin 1))) = ix1 (0 : Fin 1) :=
    funext fun a => match a with | ⟨0, _⟩ => rfl
  simp only [e1, e2, e3, hidden2_apply, hidden1_apply]
  rfl

end Cert.ReferenceIdeal.RefValue

end
-- ==== Proof.LibPlainMatmul.lean ====
/-
  A plain matrix product read at an entry.

  A `tpu.matmul` whose dimension numbers are the plain ones — an M×K left operand times a K×N right operand, the
  left's columns contracted against the right's rows, no batch axis — into the ZERO accumulator is, at the ideal
  values and at entry `(a, b)`, the sum over the contracted coordinate `c` of `A (a, c) · B (c, b)`: no rounding, no
  chunk order and no accumulator left in it. The host's `dot_general` with the same dimension numbers reads the same
  way (the library's `StackMember.dotGeneral_plain_apply`), so a kernel's product and a reference's meet in one
  `Fin K`-indexed sum.

  The dimension record is taken as ANY record equal to `DotDims.plain M K N`: a printed program states its own
  record over its own well-formedness fact, equal to the plain one by proof irrelevance (`rfl`).
-/
import Idealize.ShloMosaic.PureOps.Ideal.Laws
import Idealize.ShloMosaic.Lib.ValueIdx

namespace Cert.Mlp

open Idealize.ShloMosaic Idealize.ShloMosaic.ValueIdx

/-- Entry `(a, b)` of a plain product accumulated into zero is `∑ c, A (a, c) · B (c, b)`. -/
theorem matmul_zero_apply_of_plain {M K N : Nat} {φ₁ φ₂ : FTy}
    (D : DotDims ⟨2, ![M, K]⟩ ⟨2, ![K, N]⟩ ⟨2, ![M, N]⟩) (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  subst hD
  show FloatOps.matmul _ prec A B (constant _ .f32 0x00000000#32) (ix2 a b) = _
  rw [Ideal.matmul_constant_zero_apply, ← Equiv.sum_comp (contrEquiv1 (DotDims.plain M K N) K rfl rfl).symm]
  refine Finset.sum_congr rfl fun c _ => ?_
  have hc := contrEquiv1_symm_val (DotDims.plain M K N) K rfl rfl c
  -- the left operand is read at (a, c): its row is the entry's row, its column the contracted coordinate
  have hl : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row is the contracted coordinate, its column the entry's column
  have hr : (DotDims.plain M K N).rhsIdx (ix2 a b) ((contrEquiv1 _ K rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.Mlp
-- ==== Proof.Layout.lean ====
/-
  The kernel body's casts and broadcasts, read at coordinates.

  The body lays its values out four ways. The row projection [8, 512] gains a unit axis in the middle and the entity
  projection [256, 512] one in front; both, and the first bias [1, 512] with two unit axes, are broadcast to the
  [8, 256, 512] grid of (row, entity, hidden unit), so that entry (p, q, k) reads row `p`, entity `q` and unit `k` of
  each. That grid is then flattened to [2048, 512], pair `(p, q)` becoming row `256 p + q`; the later biases [1, 512]
  and [1, 1] are broadcast down the 2048 rows; and the [2048, 1] result is cut back into [8, 256, 1]. Each lemma
  names the operand's index by its coordinates; the casts are row-major arithmetic, the broadcasts read coordinate
  0 on a unit axis and the result's coordinate elsewhere.
-/
import Idealize.ShloMosaic.Lib.Pipeline.Value
import Idealize.ShloMosaic.Lib.ValueIdx

namespace Cert.Mlp

open Idealize.ShloMosaic Idealize.ShloMosaic.ValueIdx

variable {α : Type}

/-! ## Casts -/

/-- [8, 512] → [8, 1, 512]: entry (p, u, k) is entry (p, k). -/
theorem cast_row_proj (v : (⟨2, ![8, 512]⟩ : Shape).Idx → α) (h : (⟨2, ![8, 512]⟩ : Shape).ShapeCasts ⟨3, ![8, 1, 512]⟩)
    (p : Fin 8) (u : Fin 1) (k : Fin 512) : shapeCast ⟨3, ![8, 1, 512]⟩ v h (ix3 p u k) = v (ix2 p k) := by
  refine shapeCast_apply v h _ _ ?_
  rw [Shape.rowMajor_val_two, Shape.rowMajor_val_three]
  show p.val * 512 + k.val = (p.val * 1 + u.val) * 512 + k.val
  have := u.isLt; omega

/-- [256, 512] → [1, 256, 512]: entry (u, q, k) is entry (q, k). -/
theorem cast_entity_proj (v : (⟨2, ![256, 512]⟩ : Shape).Idx → α) (h : (⟨2, ![256, 512]⟩ : Shape).ShapeCasts ⟨3, ![1, 256, 512]⟩)
    (u : Fin 1) (q : Fin 256) (k : Fin 512) : shapeCast ⟨3, ![1, 256, 512]⟩ v h (ix3 u q k) = v (ix2 q k) := by
  refine shapeCast_apply v h _ _ ?_
  rw [Shape.rowMajor_val_two, Shape.rowMajor_val_three]
  show q.val * 512 + k.val = (u.val * 256 + q.val) * 512 + k.val
  have := u.isLt; omega

/-- [1, 512] → [1, 1, 512]: entry (u, u', k) is entry (0, k). -/
theorem cast_bias_row (v : (⟨2, ![1, 512]⟩ : Shape).Idx → α) (h : (⟨2, ![1, 512]⟩ : Shape).ShapeCasts ⟨3, ![1, 1, 512]⟩)
    (u u' u'' : Fin 1) (k : Fin 512) : shapeCast ⟨3, ![1, 1, 512]⟩ v h (ix3 u u' k) = v (ix2 u'' k) := by
  refine shapeCast_apply v h _ _ ?_
  rw [Shape.rowMajor_val_two, Shape.rowMajor_val_three]
  show u''.val * 512 + k.val = (u.val * 1 + u'.val) * 512 + k.val
  have := u.isLt; have := u'.isLt; have := u''.isLt; omega

/-- [8, 256, 512] → [2048, 512]: row `256 p + q` is pair (p, q). -/
theorem cast_flatten_pairs (v : (⟨3, ![8, 256, 512]⟩ : Shape).Idx → α) (h : (⟨3, ![8, 256, 512]⟩ : Shape).ShapeCasts ⟨2, ![2048, 512]⟩)
    (r : Fin 2048) (k : Fin 512) (p : Fin 8) (q : Fin 256) (hr : r.val = 256 * p.val + q.val) :
    shapeCast ⟨2, ![2048, 512]⟩ v h (ix2 r k) = v (ix3 p q k) := by
  refine shapeCast_apply v h _ _ ?_
  rw [Shape.rowMajor_val_two, Shape.rowMajor_val_three]
  show (p.val * 256 + q.val) * 512 + k.val = r.val * 512 + k.val
  rw [hr]; ring

/-- [2048, 1] → [8, 256, 1]: pair (p, q) is row `256 p + q`. -/
theorem cast_split_pairs (v : (⟨2, ![2048, 1]⟩ : Shape).Idx → α) (h : (⟨2, ![2048, 1]⟩ : Shape).ShapeCasts ⟨3, ![8, 256, 1]⟩)
    (p : Fin 8) (q : Fin 256) (z z' : Fin 1) (r : Fin 2048) (hr : r.val = 256 * p.val + q.val) :
    shapeCast ⟨3, ![8, 256, 1]⟩ v h (ix3 p q z) = v (ix2 r z') := by
  refine shapeCast_apply v h _ _ ?_
  rw [Shape.rowMajor_val_two, Shape.rowMajor_val_three]
  show r.val * 1 + z'.val = (p.val * 256 + q.val) * 1 + z.val
  have := z.isLt; have := z'.isLt; omega

/-! ## Broadcasts -/

/-- [8, 1, 512] → [8, 256, 512]: every entity `q` reads the row's entry. -/
theorem bcast_row_proj (v : (⟨3, ![8, 1, 512]⟩ : Shape).Idx → α) (h : (⟨3, ![8, 1, 512]⟩ : Shape).Broadcasts ⟨3, ![8, 256, 512]⟩)
    (p : Fin 8) (q : Fin 256) (k : Fin 512) : broadcastTo ⟨3, ![8, 256, 512]⟩ v h (ix3 p q k) = v (ix3 p (0 : Fin 1) k) := by
  refine broadcastTo_apply v h _ _ fun a => ?_
  match a with
  | ⟨0, _⟩ => show p.val = if (8 : Nat) = 1 then 0 else p.val; rw [if_neg (by decide)]
  | ⟨1, _⟩ => show 0 = if (1 : Nat) = 1 then 0 else q.val; rw [if_pos rfl]
  | ⟨2, _⟩ => show k.val = if (512 : Nat) = 1 then 0 else k.val; rw [if_neg (by decide)]

/-- [1, 256, 512] → [8, 256, 512]: every row `p` reads the entity's entry. -/
theorem bcast_entity_proj (v : (⟨3, ![1, 256, 512]⟩ : Shape).Idx → α) (h : (⟨3, ![1, 256, 512]⟩ : Shape).Broadcasts ⟨3, ![8, 256, 512]⟩)
    (p : Fin 8) (q : Fin 256) (k : Fin 512) : broadcastTo ⟨3, ![8, 256, 512]⟩ v h (ix3 p q k) = v (ix3 (0 : Fin 1) q k) := by
  refine broadcastTo_apply v h _ _ fun a => ?_
  match a with
  | ⟨0, _⟩ => show 0 = if (1 : Nat) = 1 then 0 else p.val; rw [if_pos rfl]
  | ⟨1, _⟩ => show q.val = if (256 : Nat) = 1 then 0 else q.val; rw [if_neg (by decide)]
  | ⟨2, _⟩ => show k.val = if (512 : Nat) = 1 then 0 else k.val; rw [if_neg (by decide)]

/-- [1, 1, 512] → [8, 256, 512]: every pair reads the unit's entry. -/
theorem bcast_bias_grid (v : (⟨3, ![1, 1, 512]⟩ : Shape).Idx → α) (h : (⟨3, ![1, 1, 512]⟩ : Shape).Broadcasts ⟨3, ![8, 256, 512]⟩)
    (p : Fin 8) (q : Fin 256) (k : Fin 512) : broadcastTo ⟨3, ![8, 256, 512]⟩ v h (ix3 p q k) = v (ix3 (0 : Fin 1) (0 : Fin 1) k) := by
  refine broadcastTo_apply v h _ _ fun a => ?_
  match a with
  | ⟨0, _⟩ => show 0 = if (1 : Nat) = 1 then 0 else p.val; rw [if_pos rfl]
  | ⟨1, _⟩ => show 0 = if (1 : Nat) = 1 then 0 else q.val; rw [if_pos rfl]
  | ⟨2, _⟩ => show k.val = if (512 : Nat) = 1 then 0 else k.val; rw [if_neg (by decide)]

/-- [1, 512] → [2048, 512]: every row reads the unit's entry. -/
theorem bcast_bias_rows (v : (⟨2, ![1, 512]⟩ : Shape).Idx → α) (h : (⟨2, ![1, 512]⟩ : Shape).Broadcasts ⟨2, ![2048, 512]⟩)
    (r : Fin 2048) (j : Fin 512) : broadcastTo ⟨2, ![2048, 512]⟩ v h (ix2 r j) = v (ix2 (0 : Fin 1) j) := by
  refine broadcastTo_apply v h _ _ fun a => ?_
  match a with
  | ⟨0, _⟩ => show 0 = if (1 : Nat) = 1 then 0 else r.val; rw [if_pos rfl]
  | ⟨1, _⟩ => show j.val = if (512 : Nat) = 1 then 0 else j.val; rw [if_neg (by decide)]

/-- [1, 1] → [2048, 1]: every row reads the one entry. -/
theorem bcast_bias_one (v : (⟨2, ![1, 1]⟩ : Shape).Idx → α) (h : (⟨2, ![1, 1]⟩ : Shape).Broadcasts ⟨2, ![2048, 1]⟩)
    (r : Fin 2048) (z : Fin 1) : broadcastTo ⟨2, ![2048, 1]⟩ v h (ix2 r z) = v (ix2 (0 : Fin 1) (0 : Fin 1)) := by
  refine broadcastTo_apply v h _ _ fun a => ?_
  match a with
  | ⟨0, _⟩ => show 0 = if (1 : Nat) = 1 then 0 else r.val; rw [if_pos rfl]
  | ⟨1, _⟩ => show 0 = if (1 : Nat) = 1 then 0 else z.val; rw [if_pos rfl]

end Cert.Mlp
-- ==== Proof.Body.lean ====
/-
  What the kernel body stores, read at an entry.

  One grid step holds 8 rows' features `x0` [8, 256], all 256 entities' features `x1` [256, 64], the two blocks of the
  first weight matrix `x2` [256, 512] and `x3` [64, 512], the first bias `x5` [1, 512], the second layer `x4` [512, 512]
  and `x6` [1, 512], the last layer `x7` [512, 1] and `x8` [1, 1]. The body projects the rows and the entities
  separately, adds the two projections over the grid of 8 × 256 pairs with the bias, rectifies, flattens the pairs to
  2048 rows (pair (p, q) is row `256 p + q`), applies the second layer to every row and rectifies, applies the last
  layer, and cuts the 2048 scores back into the [8, 256, 1] block. At the ideal values the format changes are the
  identity and each product into the zero accumulator is a plain sum, so entry (p, q, 0) of what is stored is
  `Mlp.mlp` of the step's blocks at row `p` and entity `q`.
-/
import proofs.«103381_j32169305047137_1_alg».proof.Proof.Gen.KernelIdeal.Skeleton
import proofs.«103381_j32169305047137_1_alg».proof.Proof.Spec
import proofs.«103381_j32169305047137_1_alg».proof.Proof.LibPlainMatmul
import proofs.«103381_j32169305047137_1_alg».proof.Proof.Layout

noncomputable section

namespace Cert.KernelIdeal.Body

open Cert.KernelIdeal Cert.KernelIdeal.Gen Idealize.ShloMosaic Idealize.ShloMosaic.ValueIdx Cert.Mlp

variable (x0 : Vec Ideal S8x256 .f32) (x1 : Vec Ideal S256x64 .f32) (x2 : Vec Ideal S256x512 .f32) (x3 : Vec Ideal S64x512 .f32)
  (x4 : Vec Ideal S512x512 .f32) (x5 x6 : Vec Ideal S1x512 .f32) (x7 : Vec Ideal S512x1 .f32) (x8 : Vec Ideal S1x1 .f32)

/-- The second hidden layer of pair (p, q), which sits in row `r = 256 p + q` of the flattened grid, at unit `j`. -/
theorem hidden2_apply (r : Fin 2048) (j : Fin 512) (p : Fin 8) (q : Fin 256) (hr : r.val = 256 * p.val + q.val) :
    k0_pay2 x0 x2 x1 x3 x5 x4 x6 (ix2 r j)
      = max ((∑ k : Fin 512, max (((∑ h : Fin 256, x0 (ix2 p h) * x2 (ix2 h k)) + ∑ d : Fin 64, x1 (ix2 q d) * x3 (ix2 d k))
          + x5 (ix2 (0 : Fin 1) k)) floor0 * x4 (ix2 k j)) + x6 (ix2 (0 : Fin 1) j)) floor0 := by
  unfold k0_pay2
  simp only [truncf_apply, maximumf_apply, addf_apply, broadcast_apply]
  rw [matmul_zero_apply_of_plain dot_S2048x512_S512x512_S2048x512_1_0_0_1_n_n rfl, bcast_bias_rows, shapeCast_self]
  simp only [truncf_apply, cast_flatten_pairs _ _ r _ p q hr, maximumf_apply, addf_apply, broadcast_apply,
    bcast_row_proj, bcast_entity_proj, bcast_bias_grid, cast_row_proj, cast_entity_proj, cast_bias_row _ _ _ _ (0 : Fin 1),
    shapeCast_self,
    matmul_zero_apply_of_plain dot_S8x256_S256x512_S8x512_1_0_0_1_n_n rfl,
    matmul_zero_apply_of_plain dot_S256x64_S64x512_S256x512_1_0_0_1_n_n rfl]
  rfl

/-- The score of pair (p, q) from the second hidden layer's rows `P`: row `r = 256 p + q` against the one column of the
    last layer, plus its bias. -/
theorem score_apply (P : FVec Ideal S2048x512 .bf16) (p : Fin 8) (q : Fin 256) (z : Fin 1) (r : Fin 2048)
    (hr : r.val = 256 * p.val + q.val) :
    k0_pay1 P x7 x8 (ix3 p q z) = (∑ j : Fin 512, P (ix2 r j) * x7 (ix2 j (0 : Fin 1))) + x8 (ix2 (0 : Fin 1) (0 : Fin 1)) := by
  unfold k0_pay1
  simp only [cast_split_pairs _ _ p q z (0 : Fin 1) r hr, addf_apply, truncf_apply,
    matmul_zero_apply_of_plain dot_S2048x512_S512x1_S2048x1_1_0_0_1_n_n rfl, bcast_bias_one, shapeCast_self]

/-- Entry (p, q, z) of the stored block is the score of the step's row `p` against entity `q`. -/
theorem stored_apply (p : Fin 8) (q : Fin 256) (z : Fin 1) :
    k0_pay1 (k0_pay2 x0 x2 x1 x3 x5 x4 x6) x7 x8 (ix3 p q z)
      = mlp (fun (p : Fin 8) (h : Fin 256) => x0 (ix2 p h)) (fun (h : Fin 256) (k : Fin 512) => x2 (ix2 h k))
          (fun (q : Fin 256) (d : Fin 64) => x1 (ix2 q d)) (fun (d : Fin 64) (k : Fin 512) => x3 (ix2 d k))
          (fun k => x5 (ix2 (0 : Fin 1) k)) (fun (k : Fin 512) (j : Fin 512) => x4 (ix2 k j)) (fun j => x6 (ix2 (0 : Fin 1) j))
          (fun j => x7 (ix2 j (0 : Fin 1))) (x8 (ix2 (0 : Fin 1) (0 : Fin 1))) p q := by
  have hr : (⟨256 * p.val + q.val, by have := p.isLt; have := q.isLt; omega⟩ : Fin 2048).val = 256 * p.val + q.val := rfl
  rw [score_apply x7 x8 _ p q z _ hr]
  simp only [hidden2_apply x0 x1 x2 x3 x4 x5 x6 _ _ p q hr]
  rfl

end Cert.KernelIdeal.Body

end
-- ==== Proof.Blocks.lean ====
/-
  From the blocks to the array, and through the last reshape.

  The grid has 64 steps. Step `t` is handed rows `8 t … 8 t + 7` of the flattened row features (the [8, 64, 256]
  argument reshaped to [512, 256] before the region: flattened row `r` is row (r / 64, r % 64)), and every step the whole
  of the other eight operands: the entity features, the upper 256 and the lower 64 rows of the stacked first weight
  matrix (two slices taken before the region), the three biases (each reshaped to a one-row matrix before the region),
  and the second and third weight matrices. It writes back block `t` of the [512, 256, 1] output, rows
  `8 t … 8 t + 7`. So entry (p, q, 0) of what step `t` writes is the score of flattened row `8 t + p` against entity
  `q`, which is `Mlp.flatResult` of the arguments read where the block lies; the 64 blocks tile the output (row `r` is in
  block `r / 8`), so the array the region leaves is `Mlp.flatResult`; and the reshape after the region, which splits the
  row axis back into (b, n), makes it `Mlp.result`.
-/
import proofs.«103381_j32169305047137_1_alg».proof.Proof.Gen.KernelIdeal.Frame
import proofs.«103381_j32169305047137_1_alg».proof.Proof.Body
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Cert.Mlp
open Idealize.SL.Sem Idealize.ShloMosaic.StableHlo

variable (m : (ℓ : Loc nD τ sig) → Buf (Elt Ideal) ℓ) (ρ : Dev nD → PrngReg)

/-! ## The operands as the region finds them -/

/-- The row features, flattened: the first argument reshaped [8, 64, 256] → [512, 256]. -/
theorem entry_rows (c : Dev nD) : (V m c main_v0 : S512x256.Idx → EReal)
    = shapeCast S512x256 (m ((c : Thread nD τ).loc main_arg0)) shapeCasts_S8x64x256_S512x256 := by
  show StableHlo.after hostOps0 (fun b => m (c, b)) (Proc.devRef .tc main_v0) = _
  after_results <;> rfl

/-- The upper block of the stacked weight matrix: its rows 0 … 255. -/
theorem entry_upper (c : Dev nD) : (V m c main_v1 : S256x512.Idx → EReal)
    = extractStridedSlice S256x512 ![0, 0] (m ((c : Thread nD τ).loc main_arg2)) slices_S320x512_S256x512_0_0 := by
  show StableHlo.after hostOps0 (fun b => m (c, b)) (Proc.devRef .tc main_v1) = _
  after_results <;> rfl

/-- The lower block: its rows 256 … 319. -/
theorem entry_lower (c : Dev nD) : (V m c main_v2 : S64x512.Idx → EReal)
    = extractStridedSlice S64x512 ![256, 0] (m ((c : Thread nD τ).loc main_arg2)) slices_S320x512_S64x512_256_0 := by
  show StableHlo.after hostOps0 (fun b => m (c, b)) (Proc.devRef .tc main_v2) = _
  after_results <;> rfl

/-- The first bias as a one-row matrix. -/
theorem entry_bias1 (c : Dev nD) : (V m c main_v3 : S1x512.Idx → EReal)
    = shapeCast S1x512 (m ((c : Thread nD τ).loc main_arg3)) shapeCasts_S512_S1x512 := by
  show StableHlo.after hostOps0 (fun b => m (c, b)) (Proc.devRef .tc main_v3) = _
  after_results <;> rfl

/-- The second bias as a one-row matrix. -/
theorem entry_bias2 (c : Dev nD) : (V m c main_v4 : S1x512.Idx → EReal)
    = shapeCast S1x512 (m ((c : Thread nD τ).loc main_arg5)) shapeCasts_S512_S1x512 := by
  show StableHlo.after hostOps0 (fun b => m (c, b)) (Proc.devRef .tc main_v4) = _
  after_results <;> rfl

/-- The last bias as a one-entry matrix. -/
theorem entry_bias3 (c : Dev nD) : (V m c main_v5 : S1x1.Idx → EReal)
    = shapeCast S1x1 (m ((c : Thread nD τ).loc main_arg7)) shapeCasts_S1_S1x1 := by
  show StableHlo.after hostOps0 (fun b => m (c, b)) (Proc.devRef .tc main_v5) = _
  after_results <;> rfl

/-! ## Where each step's blocks lie -/

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 64 steps: the row features' and the output's block index on the row axis is the
    step; every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

/-- Row `p` of step `t`'s row block is flattened row `r = 8 t + p`, which is row (r / 64, r % 64) of the argument. -/
theorem blk_rows (c : Dev nD) (t : Fin cfg0.N) (p : Fin 8) (h : Fin 256) (r : Fin 512) (hr : r.val = 8 * t.val + p.val) :
    iblk m c 0 t (ix2 p h) = m ((c : Thread nD τ).loc main_arg0)
      (ix3 (⟨r.val / 64, by have := r.isLt; omega⟩ : Fin 8) (⟨r.val % 64, Nat.mod_lt _ (by decide)⟩ : Fin 64) h) := by
  obtain ⟨e0, e1, -⟩ := idx_facts t
  show V m c main_v0 (((cfg0.win 0).blk t).view.emb (ix2 p h)) = _
  rw [entry_rows]
  refine shapeCast_apply (s := S8x64x256) (t := S512x256) _ _ _ _ ?_
  rw [Shape.rowMajor_val_two, Shape.rowMajor_val_three]
  show (r.val / 64 * 64 + r.val % 64) * 256 + h.val
    = (win0_0.index t (0 : Fin 2) * 8 + 1 * p.val) * 256 + (win0_0.index t (1 : Fin 2) * 256 + 1 * h.val)
  rw [e0, e1]; omega

/-- The entity features are handed over whole. -/
theorem blk_entities (c : Dev nD) (t : Fin cfg0.N) (q : Fin 256) (d : Fin 64) (q' : Fin 256) (hq : q'.val = q.val) :
    iblk m c 1 t (ix2 q d) = m ((c : Thread nD τ).loc main_arg1) (ix2 q' d) := by
  obtain ⟨-, -, e0, e1, -⟩ := idx_facts t
  show V m c main_arg1 (((cfg0.win 1).blk t).view.emb (ix2 q d)) = _
  rw [V_main_arg1]
  refine congrArg _ (funext fun a => Fin.ext ?_)
  match a with
  | ⟨0, _⟩ => show win0_1.index t (0 : Fin 2) * 256 + 1 * q.val = q'.val; rw [e0]; omega
  | ⟨1, _⟩ => show win0_1.index t (1 : Fin 2) * 64 + 1 * d.val = d.val; rw [e1]; omega

/-- The upper weight block, whole: row `h` is row `h` of the stacked matrix. -/
theorem blk_upper (c : Dev nD) (t : Fin cfg0.N) (h : Fin 256) (k : Fin 512) :
    iblk m c 2 t (ix2 h k) = m ((c : Thread nD τ).loc main_arg2) (ix2 (upper h) k) := by
  obtain ⟨-, -, -, -, e0, e1, -⟩ := idx_facts t
  show V m c main_v1 (((cfg0.win 2).blk t).view.emb (ix2 h k)) = _
  rw [entry_upper]
  refine extractStridedSlice_apply _ _ _ _ _ fun a => ?_
  match a with
  | ⟨0, _⟩ => show h.val = 0 + (win0_2.index t (0 : Fin 2) * 256 + 1 * h.val); rw [e0]; omega
  | ⟨1, _⟩ => show k.val = 0 + (win0_2.index t (1 : Fin 2) * 512 + 1 * k.val); rw [e1]; omega

/-- The lower weight block, whole: row `d` is row `256 + d` of the stacked matrix. -/
theorem blk_lower (c : Dev nD) (t : Fin cfg0.N) (d : Fin 64) (k : Fin 512) :
    iblk m c 3 t (ix2 d k) = m ((c : Thread nD τ).loc main_arg2) (ix2 (lower d) k) := by
  obtain ⟨-, -, -, -, -, -, e0, e1, -⟩ := idx_facts t
  show V m c main_v2 (((cfg0.win 3).blk t).view.emb (ix2 d k)) = _
  rw [entry_lower]
  refine extractStridedSlice_apply _ _ _ _ _ fun a => ?_
  match a with
  | ⟨0, _⟩ => show 256 + d.val = 256 + (win0_3.index t (0 : Fin 2) * 64 + 1 * d.val); rw [e0]; omega
  | ⟨1, _⟩ => show k.val = 0 + (win0_3.index t (1 : Fin 2) * 512 + 1 * k.val); rw [e1]; omega

/-- The second weight matrix, whole. -/
theorem blk_w2 (c : Dev nD) (t : Fin cfg0.N) (k j : Fin 512) :
    iblk m c 4 t (ix2 k j) = m ((c : Thread nD τ).loc main_arg4) (ix2 k j) := by
  obtain ⟨-, -, -, -, -, -, -, -, e0, e1, -⟩ := idx_facts t
  show V m c main_arg4 (((cfg0.win 4).blk t).view.emb (ix2 k j)) = _
  rw [V_main_arg4]
  refine congrArg _ (funext fun a => Fin.ext ?_)
  match a with
  | ⟨0, _⟩ => show win0_4.index t (0 : Fin 2) * 512 + 1 * k.val = k.val; rw [e0]; omega
  | ⟨1, _⟩ => show win0_4.index t (1 : Fin 2) * 512 + 1 * j.val = j.val; rw [e1]; omega

/-- The first bias's one row. -/
theorem blk_bias1 (c : Dev nD) (t : Fin cfg0.N) (u : Fin 1) (k : Fin 512) :
    iblk m c 5 t (ix2 u k) = m ((c : Thread nD τ).loc main_arg3) (ix1 k) := by
  obtain ⟨-, -, -, -, -, -, -, -, -, -, e0, e1, -⟩ := idx_facts t
  show V m c main_v3 (((cfg0.win 5).blk t).view.emb (ix2 u k)) = _
  rw [entry_bias1]
  refine shapeCast_apply (s := S512) (t := S1x512) _ _ _ _ ?_
  rw [Shape.rowMajor_val_one, Shape.rowMajor_val_two]
  show k.val = (win0_5.index t (0 : Fin 2) * 1 + 1 * u.val) * 512 + (win0_5.index t (1 : Fin 2) * 512 + 1 * k.val)
  rw [e0, e1]; have := u.isLt; omega

/-- The second bias's one row. -/
theorem blk_bias2 (c : Dev nD) (t : Fin cfg0.N) (u : Fin 1) (j : Fin 512) :
    iblk m c 6 t (ix2 u j) = m ((c : Thread nD τ).loc main_arg5) (ix1 j) := by
  obtain ⟨-, -, -, -, -, -, -, -, -, -, -, -, e0, e1, -⟩ := idx_facts t
  show V m c main_v4 (((cfg0.win 6).blk t).view.emb (ix2 u j)) = _
  rw [entry_bias2]
  refine shapeCast_apply (s := S512) (t := S1x512) _ _ _ _ ?_
  rw [Shape.rowMajor_val_one, Shape.rowMajor_val_two]
  show j.val = (win0_6.index t (0 : Fin 2) * 1 + 1 * u.val) * 512 + (win0_6.index t (1 : Fin 2) * 512 + 1 * j.val)
  rw [e0, e1]; have := u.isLt; omega

/-- The last weight matrix, whole. -/
theorem blk_w3 (c : Dev nD) (t : Fin cfg0.N) (j : Fin 512) (u : Fin 1) :
    iblk m c 7 t (ix2 j u) = m ((c : Thread nD τ).loc main_arg6) (ix2 j u) := by
  obtain ⟨-, -, -, -, -, -, -, -, -, -, -, -, -, -, e0, e1, -⟩ := idx_facts t
  show V m c main_arg6 (((cfg0.win 7).blk t).view.emb (ix2 j u)) = _
  rw [V_main_arg6]
  refine congrArg _ (funext fun a => Fin.ext ?_)
  match a with
  | ⟨0, _⟩ => show win0_7.index t (0 : Fin 2) * 512 + 1 * j.val = j.val; rw [e0]; omega
  | ⟨1, _⟩ => show win0_7.index t (1 : Fin 2) * 1 + 1 * u.val = u.val; rw [e1]; omega

/-- The last bias's one entry. -/
theorem blk_bias3 (c : Dev nD) (t : Fin cfg0.N) (u u' u'' : Fin 1) :
    iblk m c 8 t (ix2 u u') = m ((c : Thread nD τ).loc main_arg7) (ix1 u'') := by
  obtain ⟨-, -, -, -, -, -, -, -, -, -, -, -, -, -, -, -, e0, e1, -⟩ := idx_facts t
  show V m c main_v5 (((cfg0.win 8).blk t).view.emb (ix2 u u')) = _
  rw [entry_bias3]
  refine shapeCast_apply (s := S1) (t := S1x1) _ _ _ _ ?_
  rw [Shape.rowMajor_val_one, Shape.rowMajor_val_two]
  show u''.val = (win0_8.index t (0 : Fin 2) * 1 + 1 * u.val) * 1 + (win0_8.index t (1 : Fin 2) * 1 + 1 * u'.val)
  rw [e0, e1]; have := u.isLt; have := u'.isLt; have := u''.isLt; omega

/-! ## What a step writes back, and the array after the run -/

/-- The scores over the arguments as launched, rows flattened: what the region's output array ends holding. -/
abbrev flat (c : Dev nD) : S512x256x1.Idx → EReal :=
  flatResult (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A stored block whose entries are `G` read through `emb` IS `G` read through `emb`: the body's entry lemma, over
    every entry of the block. -/
theorem stored_eq_of (x0 : Vec Ideal S8x256 .f32) (x1 : Vec Ideal S256x64 .f32) (x2 : Vec Ideal S256x512 .f32)
    (x3 : Vec Ideal S64x512 .f32) (x4 : Vec Ideal S512x512 .f32) (x5 x6 : Vec Ideal S1x512 .f32) (x7 : Vec Ideal S512x1 .f32)
    (x8 : Vec Ideal S1x1 .f32) (G : S512x256x1.Idx → EReal) (emb : S8x256x1.Idx → S512x256x1.Idx)
    (hG : ∀ (p : Fin 8) (q : Fin 256) (z : Fin 1),
      mlp (fun (p : Fin 8) (h : Fin 256) => x0 (ix2 p h)) (fun (h : Fin 256) (k : Fin 512) => x2 (ix2 h k))
          (fun (q : Fin 256) (d : Fin 64) => x1 (ix2 q d)) (fun (d : Fin 64) (k : Fin 512) => x3 (ix2 d k))
          (fun k => x5 (ix2 (0 : Fin 1) k)) (fun (k : Fin 512) (j : Fin 512) => x4 (ix2 k j)) (fun j => x6 (ix2 (0 : Fin 1) j))
          (fun j => x7 (ix2 j (0 : Fin 1))) (x8 (ix2 (0 : Fin 1) (0 : Fin 1))) p q = G (emb (ix3 p q z))) :
    k0_pay1 (k0_pay2 x0 x2 x1 x3 x5 x4 x6) x7 x8 = fun y => G (emb y) := by
  funext y
  obtain ⟨p, q, z, rfl⟩ : ∃ (p : Fin 8) (q : Fin 256) (z : Fin 1), y = ix3 p q z := ⟨y 0, y 1, y 2, eq_ix3 y⟩
  rw [Body.stored_apply]
  exact hG p q z

/-- WHAT STEP `t` WRITES BACK is block `t` of the flattened scores. -/
theorem flushed_eq (c : Dev nD) (t : Fin cfg0.N) :
    (dats m 0 c).flushed 9 t = ((cfg0.win 9).blk t).view.read (Elt Ideal) (flat m c) := by
  show (cfg0.win 9).cut (grid0.coords t) ((dats m 0 c).after 9 t) = _
  rw [after0_9]
  unfold out0_9
  rw [View.canon_unit_zero hz3]
  simp only [View.ld_unit_zero (S := S8x256) hz2, View.ld_unit_zero (S := S256x64) hz2, View.ld_unit_zero (S := S256x512) hz2,
    View.ld_unit_zero (S := S64x512) hz2, View.ld_unit_zero (S := S512x512) hz2, View.ld_unit_zero (S := S1x512) hz2,
    View.ld_unit_zero (S := S512x1) hz2, View.ld_unit_zero (S := S1x1) hz2]
  show k0_pay1 (k0_pay2 (iblk m c 0 t) (iblk m c 2 t) (iblk m c 1 t) (iblk m c 3 t) (iblk m c 5 t) (iblk m c 4 t) (iblk m c 6 t))
      (iblk m c 7 t) (iblk m c 8 t) = fun y => flat m c (((cfg0.win 9).blk t).view.emb y)
  refine stored_eq_of (iblk m c 0 t) (iblk m c 1 t) (iblk m c 2 t) (iblk m c 3 t) (iblk m c 4 t) (iblk m c 5 t) (iblk m c 6 t)
    (iblk m c 7 t) (iblk m c 8 t) (flat m c) (((cfg0.win 9).blk t).view.emb) fun p q z => ?_
  obtain ⟨-, -, -, -, -, -, -, -, -, -, -, -, -, -, -, -, -, -, e0, e1, e2⟩ := idx_facts t
  -- the block's entry (p, q, z) lies at row 8 t + p, entity q of the output array
  have hrow : ((((cfg0.win 9).blk t).view.emb (ix3 p q z)) 0).val = 8 * t.val + p.val := by
    show win0_9.index t (0 : Fin 3) * 8 + 1 * p.val = _; rw [e0]; omega
  have hent : ((((cfg0.win 9).blk t).view.emb (ix3 p q z)) 1).val = q.val := by
    show win0_9.index t (1 : Fin 3) * 256 + 1 * q.val = _; rw [e1]; omega
  unfold flat flatResult
  exact mlp_congr (funext fun h => blk_rows m c t p h _ hrow) (funext fun h => funext fun k => blk_upper m c t h k)
    (funext fun d => blk_entities m c t q d _ hent) (funext fun d => funext fun k => blk_lower m c t d k)
    (funext fun k => blk_bias1 m c t 0 k) (funext fun k => funext fun j => blk_w2 m c t k j)
    (funext fun j => blk_bias2 m c t 0 j) (funext fun j => blk_w3 m c t j 0) (blk_bias3 m c t 0 0 0)

/-- An index of the output array is in step `t`'s block iff each coordinate is in the block's range on its axis. -/
theorem mem_blk (t : Fin cfg0.N) (i : S512x256x1.Idx) :
    i ∈ ((cfg0.win 9).blk t).view.set ↔ ∀ a : Fin 3, win0_9.index t a * S8x256x1.size a ≤ (i a).val
      ∧ (i a).val < win0_9.index t a * S8x256x1.size a + S8x256x1.size a := by
  show i ∈ ((View.whole main_v6).slice (win0_9.rect t)).set ↔ _
  rw [View.set_slice_whole, Rect.mem_set_unit]
  exact Iff.rfl

/-- The blocks tile the output: row `r` is in step `r / 8`'s block. -/
theorem cover (i : S512x256x1.Idx) : ∃ t : Fin cfg0.N, (cfg0.win 9).flush t = true ∧ i ∈ ((cfg0.win 9).blk t).view.set := by
  have hN : cfg0.N = 64 := N_0
  have hi0 : (i 0).val < 512 := (i 0).isLt
  have hi1 : (i 1).val < 256 := (i 1).isLt
  have hi2 : (i 2).val < 1 := (i 2).isLt
  obtain ⟨t, ht⟩ : ∃ t : Fin cfg0.N, t.val = (i 0).val / 8 := ⟨⟨(i 0).val / 8, by rw [hN]; omega⟩, rfl⟩
  refine ⟨t, flush0_9 t, ?_⟩
  rw [mem_blk]
  obtain ⟨-, -, -, -, -, -, -, -, -, -, -, -, -, -, -, -, -, -, e0, e1, e2⟩ := idx_facts t
  intro a
  match a with
  | ⟨0, _⟩ => show win0_9.index t (0 : Fin 3) * 8 ≤ (i 0).val ∧ (i 0).val < win0_9.index t (0 : Fin 3) * 8 + 8; rw [e0]; omega
  | ⟨1, _⟩ => show win0_9.index t (1 : Fin 3) * 256 ≤ (i 1).val ∧ (i 1).val < win0_9.index t (1 : Fin 3) * 256 + 256; rw [e1]; omega
  | ⟨2, _⟩ => show win0_9.index t (2 : Fin 3) * 1 ≤ (i 2).val ∧ (i 2).val < win0_9.index t (2 : Fin 3) * 1 + 1; rw [e2]; omega

/-- THE OUTPUT ARRAY after the region: the flattened scores. -/
theorem final (c : Dev nD) : (dats m 0 c).arrAt 9 cfg0.N = flat m c :=
  (dats m 0 c).arrAt_eq_of_cover 9 (flat m c) (fun t _ => flushed_eq m c t) cover

end Cert.KernelIdeal.Blocks

end
-- ==== Proof.KernelRun.lean ====
/-
  The idealized kernel's run, with its result named.

  After the region the program reshapes the [512, 256, 1] array of flattened scores to [8, 64, 256, 1]: entry
  (b, n, q, 0) is flattened row `64 b + n`, entity `q`. The region leaves the flattened scores (`Blocks.final`), so
  the program's result is `Mlp.result` of its arguments; and no operation writes an argument.
-/
import proofs.«103381_j32169305047137_1_alg».proof.Proof.Blocks

set_option maxRecDepth 16384

noncomputable section

namespace Cert.KernelIdeal.KernelRun

open Cert.KernelIdeal Cert.KernelIdeal.Gen Cert.KernelIdeal.Blocks Idealize.ShloMosaic Idealize.ShloMosaic.TcCoe
open Idealize.ShloMosaic.ValueIdx Cert.Mlp Idealize.SL.Sem Idealize.ShloMosaic.StableHlo

variable (m : (ℓ : Loc nD τ sig) → Buf (Elt Ideal) ℓ) (ρ : Dev nD → PrngReg)

/-- What the reshape after the region leaves in the result buffer: the scores, rows split back into (b, n). -/
theorem tail_result (c : Dev nD) :
    (Pipeline.afterTail₀ cfgs (dats m) 0 (V0 m) [hostOps1] c main_v7 : S8x64x256x1.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold Pipeline.afterTail₀
  show StableHlo.after hostOps1 _ (Proc.devRef .tc main_v7) = _
  after_results
  -- the region's output array, as the reshape reads it, is the flattened scores
  have e : Pipeline.withArrays (cfgs 0).spec c (V0 m c) (fun w => (dats m 0 c).arrAt w (cfgs 0).N) (Proc.devRef .tc main_v6)
      = flat m c := (Pipeline.withArrays_arr spec0 launch0.win.arr_inj c _ _ 9).trans (final m c)
  show shapeCast S8x64x256x1
      (Pipeline.withArrays (cfgs 0).spec c (V0 m c) (fun w => (dats m 0 c).arrAt w (cfgs 0).N) (Proc.devRef .tc main_v6))
      shapeCasts_S512x256x1_S8x64x256x1 = _
  rw [e]
  funext i
  obtain ⟨b, n, q, z, rfl⟩ : ∃ (b : Fin 8) (n : Fin 64) (q : Fin 256) (z : Fin 1), i = ix4 b n q z :=
    ⟨i 0, i 1, i 2, i 3, eq_ix4 i⟩
  refine (shapeCast_apply (s := S512x256x1) (t := S8x64x256x1) _ _ _
    (ix3 (⟨64 * b.val + n.val, by have := b.isLt; have := n.isLt; omega⟩ : Fin 512) q z) ?_).trans ?_
  · rw [Shape.rowMajor_val_three, Shape.rowMajor_val_four]
    show ((64 * b.val + n.val) * 256 + q.val) * 1 + z.val = ((b.val * 64 + n.val) * 256 + q.val) * 1 + z.val
    omega
  · exact (result_eq_flat _ _ _ _ _ _ _ _ b n q z z _ rfl).symm

/-- Every weakly fair execution of the idealized kernel program terminates with its result at `Mlp.result` of the
    arguments and the arguments unchanged. -/
theorem run : θ_run defs (onTc (τ := τ) (main (F := Ideal))) ⟨m, fun _ => 0, ρ⟩ fun r => ∀ c : Dev nD,
      r.2.mem ((c.tc : Thread nD τ).loc main_v7)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h c).2 main_v7 (Pipeline.mem_restRefs_of main_v7 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c))),
      ((h c).2 main_arg7 (Pipeline.mem_restRefs_of main_arg7 (by decide) (by decide))).trans (W_main_arg7 m (dats m) c)⟩)
    (run_main m ρ)

end Cert.KernelIdeal.KernelRun

end
-- ==== Proof.lean ====
/-
  A three-layer perceptron scoring every (row, entity) pair, tiled over the rows, against its plain reference.

  Both programs take row features [8, 64, 256], entity features [256, 64], a first weight matrix [320, 512] whose upper
  256 rows meet the row features and whose lower 64 rows meet the entity features, and two further dense layers
  [512, 512] and [512, 1] with their biases. For row (b, n) and entity `q` the first layer's unit `k` is
  `relu ((∑ h, x[b,n,h] · W1[h,k]) + (∑ d, e[q,d] · W1[256+d,k]) + b1[k])`, the second's unit `j` is
  `relu ((∑ k, … · W2[k,j]) + b2[j])`, and the score is `(∑ j, … · W3[j,0]) + b3[0]` (`Mlp.result`, Proof/Spec.lean).

  The kernel flattens the rows to 512, takes 8 of them per grid step, forms the two projections separately, adds them
  over the 8 × 256 pairs of the step, and runs the two later layers on the 2048 flattened pairs; its products take
  bf16 operands into an f32 accumulator. At the ideal values a change of format is the identity and a product into the
  zero accumulator is a plain sum, so a step's stored block is the scores of its rows (Proof/Body.lean), the 64 blocks
  tile the output and the reshape after the region splits the rows again (Proof/Blocks.lean, Proof/KernelRun.lean).
  The reference computes the same sums with the rows unflattened (Proof/RefValue.lean, over the generated
  read-at-an-index lemmas). Every sum, `+` and `max` stands in the same order on both sides: no law of arithmetic on
  the extended reals is used, and the precondition (finite inputs) is not needed.

  The three frames: the kernel's two are the generated frame certificates; the reference's is its generated run with
  the result dropped. The idealization rewrote nothing, so `preserves` is `True`.
-/
import proofs.«103381_j32169305047137_1_alg».proof.Defs
import proofs.«103381_j32169305047137_1_alg».proof.Proof.Gen.Kernel
import proofs.«103381_j32169305047137_1_alg».proof.Proof.Gen.Kernel.Skeleton
import proofs.«103381_j32169305047137_1_alg».proof.Proof.Gen.Kernel.Launch
import proofs.«103381_j32169305047137_1_alg».proof.Proof.Gen.Kernel.Points
import proofs.«103381_j32169305047137_1_alg».proof.Proof.Gen.Kernel.Frame
import proofs.«103381_j32169305047137_1_alg».proof.Proof.Gen.KernelIdeal
import proofs.«103381_j32169305047137_1_alg».proof.Proof.Gen.KernelIdeal.Skeleton
import proofs.«103381_j32169305047137_1_alg».proof.Proof.Gen.KernelIdeal.Launch
import proofs.«103381_j32169305047137_1_alg».proof.Proof.Gen.KernelIdeal.Points
import proofs.«103381_j32169305047137_1_alg».proof.Proof.Gen.KernelIdeal.Frame
import proofs.«103381_j32169305047137_1_alg».proof.Proof.Gen.ReferenceIdeal
import proofs.«103381_j32169305047137_1_alg».proof.Proof.Gen.Pre_finite_inputs
import proofs.«103381_j32169305047137_1_alg».proof.Proof.Gen.ReferenceIdeal.Run
import proofs.«103381_j32169305047137_1_alg».proof.Proof.Gen.ReferenceIdeal.Read
import proofs.«103381_j32169305047137_1_alg».proof.Proof.RefValue
import proofs.«103381_j32169305047137_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the scores `Mlp.result` of those
    arguments: the kernel by its run, the reference by its generated run, whose last stage is the specification. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v21_eq, Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
